-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S4x4096 : Shape := ⟨2, ![4, 4096]⟩
abbrev S2048x2048 : Shape := ⟨2, ![2048, 2048]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_arg1 : IVec S4x4096 32) (main_arg5 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_c_8 : IVec S_ 32 := constantI S_ 32 0#32
  let main_v24 : IVec S4x4096 32 := broadcastInDim S4x4096 ![] bcast_S_S4x4096 main_c_8
  let main_v25 : IVec S4x4096 1 := cmpi .eq main_arg1 main_v24
  let main_c_9 : IVec S_ 32 := constantI S_ 32 1#32
  let main_v26 : IVec S4x4096 32 := broadcastInDim S4x4096 ![] bcast_S_S4x4096 main_c_9
  let main_v27 : IVec S4x4096 1 := cmpi .eq main_arg1 main_v26
  let main_v28 : IVec S4x4096 1 := ori main_v25 main_v27
  let main_c_10 : IVec S_ 1 := constantI S_ 1 1#1
  let main_v29 : IVec S_ 1 := (fun x v => Host.reduce IntOp.andi x v reducesTo_S4x4096_S_d0_1 h_S_) main_v28 main_c_10
  let main_v30 : IVec S_ 1 := andi main_v23 main_v29
  main_v30

def fn {F : FTy → Type} [FloatOps F] (main_arg0 : FVec F S4x4096x2048 .f32) (main_arg1 : IVec S4x4096 32) (main_arg2 : FVec F S2048x2048 .f32) (main_arg3 : FVec F S2048 .f32) (main_arg4 : FVec F S2048x2048 .f32) (main_arg5 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg2
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg1 main_arg5 main_v13 main_v16
-- ==== Kernel.lean ====
abbrev S4x4096x2048 : Shape := ⟨3, ![4, 4096, 2048]⟩
abbrev S4x4096 : Shape := ⟨2, ![4, 4096]⟩
abbrev S2048x2048 : Shape := ⟨2, ![2048, 2048]⟩
abbrev S2048 : Shape := ⟨1, ![2048]⟩
abbrev S2048x8x256 : Shape := ⟨3, ![2048, 8, 256]⟩
abbrev S2048x8x1x256 : Shape := ⟨4, ![2048, 8, 1, 256]⟩
abbrev S2048x8x2x256 : Shape := ⟨4, ![2048, 8, 2, 256]⟩
abbrev S2048x4096 : Shape := ⟨2, ![2048, 4096]⟩
abbrev S8x256 : Shape := ⟨2, ![8, 256]⟩
abbrev S8x1x256 : Shape := ⟨3, ![8, 1, 256]⟩
abbrev S8x2x256 : Shape := ⟨3, ![8, 2, 256]⟩
abbrev S1x4096 : Shape := ⟨2, ![1, 4096]⟩
abbrev S4x256x2048 : Shape := ⟨3, ![4, 256, 2048]⟩
abbrev S4x256 : Shape := ⟨2, ![4, 256]⟩
abbrev S2048x512 : Shape := ⟨2, ![2048, 512]⟩
abbrev S1x512 : Shape := ⟨2, ![1, 512]⟩
abbrev S4x256x256 : Shape := ⟨3, ![4, 256, 256]⟩
abbrev S1024x2048 : Shape := ⟨2, ![1024, 2048]⟩
abbrev S1024x512 : Shape := ⟨2, ![1024, 512]⟩
abbrev S4x256x512 : Shape := ⟨3, ![4, 256, 512]⟩
abbrev S1x1x512 : Shape := ⟨3, ![1, 1, 512]⟩
abbrev S4x256x1 : Shape := ⟨3, ![4, 256, 1]⟩

abbrev nBuf : Space → Nat
  | .hbm => 22
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048x2048, .f32⟩
  | .hbm, ⟨8, _⟩ => ⟨S2048x8x256, .f32⟩
  | .hbm, ⟨9, _⟩ => ⟨S2048x8x256, .f32⟩
  | .hbm, ⟨10, _⟩ => ⟨S2048x8x1x256, .f32⟩
  | .hbm, ⟨11, _⟩ => ⟨S2048x8x1x256, .f32⟩
  | .hbm, ⟨12, _⟩ => ⟨S2048x8x2x256, .f32⟩
  | .hbm, ⟨13, _⟩ => ⟨S2048x4096, .f32⟩
  | .hbm, ⟨14, _⟩ => ⟨S2048x4096, .bf16⟩
  | .hbm, ⟨15, _⟩ => ⟨S8x256, .f32⟩
  | .hbm, ⟨16, _⟩ => ⟨S8x256, .f32⟩
  | .hbm, ⟨17, _⟩ => ⟨S8x1x256, .f32⟩
  | .hbm, ⟨18, _⟩ => ⟨S8x1x256, .f32⟩
  | .hbm, ⟨19, _⟩ => ⟨S8x2x256, .f32⟩
  | .hbm, ⟨20, _⟩ => ⟨S1x4096, .f32⟩
  | .hbm, ⟨21, _⟩ => ⟨S4x4096x2048, .f32⟩
  | .local _ .vmem, ⟨0, _⟩ => ⟨S4x256x2048, .f32⟩
  | .local _ .vmem, ⟨1, _⟩ => ⟨S4x256x2048, .f32⟩
  | .local _ .vmem, ⟨2, _⟩ => ⟨S4x256, .i32⟩
  | .local _ .vmem, ⟨3, _⟩ => ⟨S4x256, .i32⟩
  | .local _ .vmem, ⟨4, _⟩ => ⟨S2048x512, .bf16⟩
  | .local _ .vmem, ⟨5, _⟩ => ⟨S2048x512, .bf16⟩
  | .local _ .vmem, ⟨6, _⟩ => ⟨S1x512, .f32⟩
  | .local _ .vmem, ⟨7, _⟩ => ⟨S1x512, .f32⟩
  | .local _ .vmem, ⟨8, _⟩ => ⟨S4x256x256, .f32⟩
  | .local _ .vmem, ⟨9, _⟩ => ⟨S4x256x256, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S4x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S2048x2048_S2048x2048_1_0 : S2048x2048.Transposes [1, 0] S2048x2048
  shapeCasts_S2048x2048_S2048x8x256 : S2048x2048.ShapeCasts S2048x8x256
  bcast_S2048x8x256_S2048x8x1x256_0_1_3 : S2048x8x256.BroadcastsInDim S2048x8x1x256 (![0, 1, 3] : Fin 3 → Fin S2048x8x1x256.rank)
  concatenates_S2048x8x1x256_S2048x8x1x256_S2048x8x2x256_d2 : Shape.Concatenates [S2048x8x1x256, S2048x8x1x256] S2048x8x2x256 2
  shapeCasts_S2048x8x2x256_S2048x4096 : S2048x8x2x256.ShapeCasts S2048x4096
  bitsLt_bf16_f32 : FTy.bits .bf16 < FTy.bits .f32
  shapeCasts_S2048_S8x256 : S2048.ShapeCasts S8x256
  bcast_S8x256_S8x1x256_0_2 : S8x256.BroadcastsInDim S8x1x256 (![0, 2] : Fin 2 → Fin S8x1x256.rank)
  concatenates_S8x1x256_S8x1x256_S8x2x256_d1 : Shape.Concatenates [S8x1x256, S8x1x256] S8x2x256 1
  shapeCasts_S8x2x256_S1x4096 : S8x2x256.ShapeCasts S1x4096
  inb_S4x256x2048_S4x256x2048_0_0_0 : ∀ a, (![0, 0, 0] : Fin 3 → Nat) a + S4x256x2048.size a ≤ S4x256x2048.size a
  h_S4x256x2048 : 0 < S4x256x2048.numel
  shapeCasts_S4x256x2048_S1024x2048 : S4x256x2048.ShapeCasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S1024x512_S4x256x512 : S1024x512.ShapeCasts S4x256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  broadcasts_S1x1x512_S4x256x512 : S1x1x512.Broadcasts S4x256x512
  slices_S4x256x512_o0_0_0_S4x256x256 : S4x256x512.Slices ![0, 0, 0] S4x256x256
  slices_S4x256x512_o0_0_256_S4x256x256 : S4x256x512.Slices ![0, 0, 256] S4x256x256
  inb_S4x256_S4x256_0_0 : ∀ a, (![0, 0] : Fin 2 → Nat) a + S4x256.size a ≤ S4x256.size a
  h_S4x256 : 0 < S4x256.numel
  shapeCasts_S4x256_S4x256x1 : S4x256.ShapeCasts S4x256x1
  broadcasts_S4x256x1_S4x256x256 : S4x256x1.Broadcasts S4x256x256
  inb_S4x256x256_S4x256x256_0_0_0 : ∀ a, (![0, 0, 0] : Fin 3 → Nat) a + S4x256x256.size a ≤ S4x256x256.size a
  h_S4x256x256 : 0 < S4x256x256.numel
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x2048.size a ≤ S4x4096x2048.size a
  hwx0_0 : ∀ i : grid0.Coords, EltTy.bits .f32 = 32 ∨ (Rect.block (s := S4x4096x2048) S4x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256.size a ≤ S4x4096.size a
  hwx0_1 : ∀ i : grid0.Coords, EltTy.bits .i32 = 32 ∨ (Rect.block (s := S4x4096) S4x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x4096.size a
  hwx0_2 : ∀ i : grid0.Coords, EltTy.bits .bf16 = 32 ∨ (Rect.block (s := S2048x4096) S2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x256.size a ≤ S4x4096x2048.size a
  hwx0_4 : ∀ i : grid0.Coords, EltTy.bits .f32 = 32 ∨ (Rect.block (s := S4x4096x2048) S4x256x256.size (cc0_transform_4 i) (hinb0_4 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_arg0) S4x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S4x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S4x4096 : Shape := ⟨2, ![4, 4096]⟩
abbrev S2048x2048 : Shape := ⟨2, ![2048, 2048]⟩
abbrev S2048 : Shape := ⟨1, ![2048]⟩
abbrev S1x1x2048 : Shape := ⟨3, ![1, 1, 2048]⟩
abbrev S_ : Shape := ⟨0, ![]⟩
abbrev S4x4096x1 : Shape := ⟨3, ![4, 4096, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S4x4096x2048, .f32⟩
  | .hbm, ⟨7, _⟩ => ⟨S1x1x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S1x1x2048, .f32⟩
  | .hbm, ⟨12, _⟩ => ⟨S4x4096x2048, .f32⟩
  | .hbm, ⟨13, _⟩ => ⟨S4x4096x2048, .f32⟩
  | .hbm, ⟨14, _⟩ => ⟨S_, .i32⟩
  | .hbm, ⟨15, _⟩ => ⟨S4x4096, .i32⟩
  | .hbm, ⟨16, _⟩ => ⟨S4x4096, .i1⟩
  | .hbm, ⟨17, _⟩ => ⟨S4x4096x1, .i1⟩
  | .hbm, ⟨18, _⟩ => ⟨S_, .i32⟩
  | .hbm, ⟨19, _⟩ => ⟨S4x4096, .i32⟩
  | .hbm, ⟨20, _⟩ => ⟨S4x4096, .i1⟩
  | .hbm, ⟨21, _⟩ => ⟨S4x4096x1, .i1⟩
  | .hbm, ⟨22, _⟩ => ⟨S_, .f32⟩
  | .hbm, ⟨23, _⟩ => ⟨S4x4096x2048, .i1⟩
  | .hbm, ⟨24, _⟩ => ⟨S4x4096x2048, .f32⟩
  | .hbm, ⟨25, _⟩ => ⟨S4x4096x2048, .f32⟩
  | .hbm, ⟨26, _⟩ => ⟨S_, .f32⟩
  | .hbm, ⟨27, _⟩ => ⟨S4x4096x2048, .i1⟩
  | .hbm, ⟨28, _⟩ => ⟨S4x4096x2048, .f32⟩
  | .hbm, ⟨29, _⟩ => ⟨S4x4096x2048, .f32⟩
  | .hbm, ⟨30, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_cst_1 : Ref sig .tc := ⟨.hbm, 26, rfl⟩
abbrev main_call1_v0 : Ref sig .tc := ⟨.hbm, 27, rfl⟩
abbrev main_call1_v1 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x2048_0_1_2 : S4x4096x1.BroadcastsInDim S4x4096x2048 (![0, 1, 2] : Fin 3 → Fin S4x4096x2048.rank)
  bcast_S_S4x4096x2048 : S_.BroadcastsInDim S4x4096x2048 (![] : Fin 0 → Fin S4x4096x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.Mixture.lean ====
/-
  Two experts mixed by a 0/1 token type, as mathematics on the extended reals.

  For a token (b, s) and an output feature e, expert j is the dense layer
      expert_j (b, s, e) = (∑ k, x (b, s, k) · W_j (e, k)) + bias_j (e).
  One program blends the two by interpolation with the token's type read as a number,
      expert_0 + t · (expert_1 − expert_0),
  the other adds the two experts masked by "t = 0" and "t = 1".
  When t is 0 or 1 and every entry of x, W_j, bias_j is a real number, both are "expert_t":
  for t = 0 the product 0 · (…) vanishes on every extended real, and for t = 1 the identity
  a + (b − a) = b holds because a and b are real (it fails when a is infinite).
-/
import Idealize.ShloMosaic.PureOps.Ideal
import Idealize.ShloMosaic.Lib.ValueIdx

noncomputable section

open scoped BigOperators

namespace Cert.Mixture

open Idealize.ShloMosaic Idealize.ShloMosaic.ValueIdx

abbrev SX : Shape := ⟨3, ![4, 4096, 2048]⟩
abbrev ST : Shape := ⟨2, ![4, 4096]⟩
abbrev SW : Shape := ⟨2, ![2048, 2048]⟩
abbrev SB : Shape := ⟨1, ![2048]⟩

/-- One expert's dense layer at (b, s, e): token (b, s) against row e of the weight, plus the bias at e. -/
def expert (x : SX.Idx → EReal) (W : SW.Idx → EReal) (bias : SB.Idx → EReal) (i : SX.Idx) : EReal :=
  (∑ k : Fin 2048, x (ix3 (i 0) (i 1) k) * W (ix2 (i 2) k)) + bias (ix1 (i 2))

/-- The interpolated mixture: expert 0 plus the token's type, as a number, times the experts' difference. -/
def lerp (x : SX.Idx → EReal) (t : ST.Idx → BitVec 32) (W0 : SW.Idx → EReal) (b0 : SB.Idx → EReal)
    (W1 : SW.Idx → EReal) (b1 : SB.Idx → EReal) (i : SX.Idx) : EReal :=
  expert x W0 b0 i + (((t (ix2 (i 0) (i 1))).toInt : ℝ) : EReal) * (expert x W1 b1 i - expert x W0 b0 i)

/-- The masked mixture: expert 0 where the type is 0, else 0, plus expert 1 where the type is 1, else 0. -/
def masked (x : SX.Idx → EReal) (t : ST.Idx → BitVec 32) (W0 : SW.Idx → EReal) (b0 : SB.Idx → EReal)
    (W1 : SW.Idx → EReal) (b1 : SB.Idx → EReal) (i : SX.Idx) : EReal :=
  (if t (ix2 (i 0) (i 1)) = 0#32 then expert x W0 b0 i else 0)
    + (if t (ix2 (i 0) (i 1)) = 1#32 then expert x W1 b1 i else 0)

/-- A finite sum of real numbers, taken in the extended reals, is the real sum. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- With real entries an expert's output is a real number. -/
theorem expert_real (x : SX.Idx → EReal) (W : SW.Idx → EReal) (bias : SB.Idx → EReal)
    (hx : ∀ j, ∃ r : ℝ, x j = r) (hW : ∀ j, ∃ r : ℝ, W j = r) (hb : ∀ j, ∃ r : ℝ, bias j = r) (i : SX.Idx) :
    ∃ r : ℝ, expert x W bias i = r := by
  choose xr hxr using hx
  choose Wr hWr using hW
  choose br hbr using hb
  refine ⟨(∑ k : Fin 2048, xr (ix3 (i 0) (i 1) k) * Wr (ix2 (i 2) k)) + br (ix1 (i 2)), ?_⟩
  unfold expert
  rw [EReal.coe_add, ← sum_coe, hbr]
  refine congrArg (· + _) (Finset.sum_congr rfl fun k _ => ?_)
  rw [hxr, hWr, EReal.coe_mul]

/-- THE LAW: for a token of type 0 or 1 and real entries, interpolation and masking agree. -/
theorem lerp_eq_masked (x : SX.Idx → EReal) (t : ST.Idx → BitVec 32) (W0 : SW.Idx → EReal) (b0 : SB.Idx → EReal)
    (W1 : SW.Idx → EReal) (b1 : SB.Idx → EReal)
    (hx : ∀ j, ∃ r : ℝ, x j = r) (hW0 : ∀ j, ∃ r : ℝ, W0 j = r) (hb0 : ∀ j, ∃ r : ℝ, b0 j = r)
    (hW1 : ∀ j, ∃ r : ℝ, W1 j = r) (hb1 : ∀ j, ∃ r : ℝ, b1 j = r)
    (ht : ∀ j, t j = 0#32 ∨ t j = 1#32) (i : SX.Idx) :
    lerp x t W0 b0 W1 b1 i = masked x t W0 b0 W1 b1 i := by
  obtain ⟨r0, h0⟩ := expert_real x W0 b0 hx hW0 hb0 i
  obtain ⟨r1, h1⟩ := expert_real x W1 b1 hx hW1 hb1 i
  unfold lerp masked
  rw [h0, h1]
  rcases ht (ix2 (i 0) (i 1)) with h | h
  · rw [h, if_pos rfl, if_neg (by decide)]
    have e : ((0#32 : BitVec 32).toInt : ℝ) = 0 := by norm_num
    rw [e, EReal.coe_zero, zero_mul]
  · rw [h, if_neg (by decide), if_pos rfl]
    have e : ((1#32 : BitVec 32).toInt : ℝ) = 1 := by norm_num
    rw [e, EReal.coe_one, one_mul, zero_add, ← EReal.coe_sub, ← EReal.coe_add]
    exact congrArg _ (by ring)

end Cert.Mixture

end
-- ==== Proof.RefMasked.lean ====
/-
  The reference, read one entry at a time, is the masked mixture.

  At (b, s, e) the reference computes each expert as the contraction of token (b, s) with row e of the
  weight plus the bias at e, keeps expert 0 where the token's type word equals 0 and expert 1 where it
  equals 1 (a zero elsewhere), and adds the two. Reading the broadcasts at an index sends (b, s, e) to
  (b, s) for the type and to e for the bias; the comparison "type = j" on words is equality of words.
-/
import proofs.«422031_j27333171872220_3_alg».proof.Proof.Gen.ReferenceIdeal.Read
import proofs.«422031_j27333171872220_3_alg».proof.Proof.Mixture
import Idealize.ShloMosaic.Lib.StableHlo.Predicate

noncomputable section

open scoped BigOperators

namespace Cert.ReferenceIdeal.Masked

open Cert.ReferenceIdeal Cert.ReferenceIdeal.Read Idealize.ShloMosaic Idealize.ShloMosaic.ValueIdx Cert.Mixture

/-- A select on "the two words are equal" is the `if` on their equality. -/
theorem select_cmpi_eq (a b : BitVec 32) (A B : EReal) :
    Scalar.select (IntOp.cmpi .eq a b) A B = if a = b then A else B := by
  unfold Scalar.select
  exact if_congr StableHlo.Predicate.cmpi_eq_iff rfl rfl

theorem lidx0 (i : S4x4096x2048.Idx) (k : Fin 2048) : lidx_main_v0 i k = ix3 (i 0) (i 1) k :=
  funext fun a => Fin.ext (by match a with | ⟨0, _⟩ => rfl | ⟨1, _⟩ => rfl | ⟨2, _⟩ => rfl)
theorem ridx0 (i : S4x4096x2048.Idx) (k : Fin 2048) : ridx_main_v0 i k = ix2 (i 2) k :=
  funext fun a => Fin.ext (by match a with | ⟨0, _⟩ => rfl | ⟨1, _⟩ => rfl)
theorem lidx4 (i : S4x4096x2048.Idx) (k : Fin 2048) : lidx_main_v4 i k = ix3 (i 0) (i 1) k :=
  funext fun a => Fin.ext (by match a with | ⟨0, _⟩ => rfl | ⟨1, _⟩ => rfl | ⟨2, _⟩ => rfl)
theorem ridx4 (i : S4x4096x2048.Idx) (k : Fin 2048) : ridx_main_v4 i k = ix2 (i 2) k :=
  funext fun a => Fin.ext (by match a with | ⟨0, _⟩ => rfl | ⟨1, _⟩ => rfl)
theorem bias0 (i : S4x4096x2048.Idx) : idx_main_v1 (idx_main_v2 i) = ix1 (i 2) :=
  funext fun a => Fin.ext (by match a with | ⟨0, _⟩ => rfl)
theorem bias1 (i : S4x4096x2048.Idx) : idx_main_v5 (idx_main_v6 i) = ix1 (i 2) :=
  funext fun a => Fin.ext (by match a with | ⟨0, _⟩ => rfl)
theorem tok0 (i : S4x4096x2048.Idx) : idx_main_v10 (idx_main_call0_v0 i) = ix2 (i 0) (i 1) :=
  funext fun a => Fin.ext (by match a with | ⟨0, _⟩ => rfl | ⟨1, _⟩ => rfl)
theorem tok1 (i : S4x4096x2048.Idx) : idx_main_v13 (idx_main_call1_v0 i) = ix2 (i 0) (i 1) :=
  funext fun a => Fin.ext (by match a with | ⟨0, _⟩ => rfl | ⟨1, _⟩ => rfl)

/-- The reference's result is the masked mixture of the two experts, entry by entry. -/
theorem ref_eq_masked (x0 : FVec Ideal S4x4096x2048 .f32) (x1 : IVec S4x4096 32) (x2 : FVec Ideal S2048x2048 .f32)
    (x3 : FVec Ideal S2048 .f32) (x4 : FVec Ideal S2048x2048 .f32) (x5 : FVec Ideal S2048 .f32) :
    val_main_v16 (F := Ideal) x0 x1 x2 x3 x4 x5 = masked x0 x1 x2 x3 x4 x5 := by
  funext i
  rw [val_main_v16_apply, val_main_v14_apply, val_main_v15_apply,
    val_main_call0_v0_apply, val_main_v10_apply, val_main_v9_apply, val_main_v8_apply, val_main_c_apply,
    val_main_call1_v0_apply, val_main_v13_apply, val_main_v12_apply, val_main_v11_apply, val_main_c_0_apply,
    val_main_call0_v1_apply, val_main_cst_apply, val_main_call1_v1_apply, val_main_cst_1_apply,
    val_main_v3_apply, val_main_v0_apply, val_main_v2_apply, val_main_v1_apply,
    val_main_v7_apply, val_main_v4_apply, val_main_v6_apply, val_main_v5_apply]
  simp only [lidx0, ridx0, lidx4, ridx4, bias0, bias1, tok0, tok1, select_cmpi_eq, Ideal.addf_def, Ideal.ofBits_def,
    Ideal.ofBits_zero_f32]
  rfl

end Cert.ReferenceIdeal.Masked

end
-- ==== Proof.PreRead.lean ====
/-
  What the precondition says of the inputs, read back.

  The precondition is a conjunction of six "all entries satisfy …" tests. Five say that an entry's absolute
  value is below +∞; on the extended reals |x| = max x (−x), which is +∞ exactly at the two infinities, so each
  such entry is a real number. The sixth says that every token's type word equals the word 0 or the word 1.
-/
import proofs.«422031_j27333171872220_3_alg».proof.Pre_finite_inputs
import Idealize.ShloMosaic.Lib.ReduceAll
import Idealize.ShloMosaic.Lib.StableHlo.Predicate
import Idealize.ShloMosaic.Lib.Pipeline.Value
import Idealize.ShloMosaic.Lib.ValueIdx

noncomputable section

namespace Cert.Pre_finite_inputs.Decode

open Cert.Pre_finite_inputs Idealize.ShloMosaic Idealize.ShloMosaic.ValueIdx

instance : Subsingleton S_.Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = r := by
  induction x using EReal.rec with
  | bot => simp at h
  | top => simp at h
  | coe r => exact ⟨r, rfl⟩

/-- One entry of an "all finite" test: the comparison |a i| < +∞ holding makes a i real. -/
theorem real_of_test {s : Shape} (hb : S_.BroadcastsInDim s (![] : Fin 0 → Fin s.rank)) (a : FVec Ideal s .f32) (i : s.Idx)
    (h : cmpf .olt (Host.absf a) (broadcastInDim s ![] hb (constant (F := Ideal) S_ .f32 0x7F800000#32)) i = 1#1) :
    ∃ r : ℝ, a i = r := by
  have e : broadcastInDim s ![] hb (constant (F := Ideal) S_ .f32 0x7F800000#32) i = (⊤ : EReal) :=
    (broadcastInDim_apply _ hb _ i ix0 (fun a => a.elim0)).trans inf_word
  have h' : Ideal.cmp .olt (max (a i) (-(a i))) (broadcastInDim s ![] hb (constant (F := Ideal) S_ .f32 0x7F800000#32) i) = 1#1 := h
  rw [e] at h'
  exact real_of_abs_lt_top _ (of_decide_eq_true ((StableHlo.Predicate.ofBool_eq_one_iff _).1 h'))

variable [Facts]
open Facts

/-- THE PRECONDITION, READ: every float entry is real and every type word is 0 or 1. -/
theorem read (a0 : FVec Ideal S4x4096x2048 .f32) (a1 : IVec S4x4096 32) (a2 : FVec Ideal S2048x2048 .f32)
    (a3 : FVec Ideal S2048 .f32) (a4 : FVec Ideal S2048x2048 .f32) (a5 : FVec Ideal S2048 .f32)
    (h : fn (F := Ideal) a0 a1 a2 a3 a4 a5 = fun _ => 1#1) :
    (∀ j, ∃ r : ℝ, a0 j = r) ∧ (∀ j, ∃ r : ℝ, a2 j = r) ∧ (∀ j, ∃ r : ℝ, a3 j = r)
      ∧ (∀ j, ∃ r : ℝ, a4 j = r) ∧ (∀ j, ∃ r : ℝ, a5 j = r) ∧ (∀ j, a1 j = 0#32 ∨ a1 j = 1#32) := by
  have h0 := congrFun h ix0
  dsimp only [fn, fn_part1] at h0
  obtain ⟨h23, h29⟩ := IntOp.andi_eq_one.1 h0
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  refine ⟨fun j => ?_, fun j => ?_, fun j => ?_, fun j => ?_, fun j => ?_, fun j => ?_⟩
  · exact real_of_test bcast_S_S4x4096x2048 a0 j (Host.reduce_andi_all _ _ _ _ _ h3 j)
  · exact real_of_test bcast_S_S2048x2048 a2 j (Host.reduce_andi_all _ _ _ _ _ h7 j)
  · exact real_of_test bcast_S_S2048 a3 j (Host.reduce_andi_all _ _ _ _ _ h12 j)
  · exact real_of_test bcast_S_S2048x2048 a4 j (Host.reduce_andi_all _ _ _ _ _ h17 j)
  · exact real_of_test bcast_S_S2048 a5 j (Host.reduce_andi_all _ _ _ _ _ h22 j)
  · have hj := Host.reduce_andi_all _ _ _ _ _ h29 j
    have b0 : broadcastInDim S4x4096 ![] bcast_S_S4x4096 (constantI S_ 32 0#32) j = 0#32 :=
      broadcastInDim_apply _ bcast_S_S4x4096 _ j ix0 (fun a => a.elim0)
    have b1 : broadcastInDim S4x4096 ![] bcast_S_S4x4096 (constantI S_ 32 1#32) j = 1#32 :=
      broadcastInDim_apply _ bcast_S_S4x4096 _ j ix0 (fun a => a.elim0)
    rcases IntOp.ori_eq_one.1 hj with hc | hc
    · left
      have := StableHlo.Predicate.cmpi_eq_iff.1 hc
      rw [b0] at this
      exact this
    · right
      have := StableHlo.Predicate.cmpi_eq_iff.1 hc
      rw [b1] at this
      exact this

end Cert.Pre_finite_inputs.Decode

end
-- ==== Proof.LibPlainDot.lean ====
/- The plain product of an M×K matrix by a K×N matrix, read at an index of the result, at the ideal (extended-real)
   values: entry (r, c) is the sum over the contracted coordinate k of x[r, k] * w[k, c]. Stated for the reference's
   product with no accumulator and for the kernel's product accumulated into a zero array, which is the same sum
   because 0 + s = s. -/
import Idealize.ShloMosaic.Lib.StackMember

noncomputable section

open scoped BigOperators

namespace Cert.LibPlainDot

open Idealize.ShloMosaic

/-- The reference's plain product at an index: the sum over the contracted coordinate. -/
theorem dotGeneral_plain_apply (M K N : Nat) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    Host.dotGeneral (DotDims.plain M K N) prec x w j = ∑ k : Fin K, x (ValueIdx.ix2 (j 0) k) * w (ValueIdx.ix2 k (j 1)) := by
  have e := StackMember.dotGeneral_plain_apply (m := M) (n := N) (k := K) prec x w (j 0) (j 1)
  exact (congrArg (Host.dotGeneral (DotDims.plain M K N) prec x w) (ValueIdx.eq_ix2 j)).trans e

/-- The kernel's product into a zero accumulator at an index: the same sum. -/
theorem matmul_zero_plain_apply {M K N : Nat} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (j : (⟨2, ![M, N]⟩ : Shape).Idx) :
    matmul d prec x w (constant ⟨2, ![M, N]⟩ .f32 0x00000000#32) j
      = ∑ k : Fin K, x (ValueIdx.ix2 (j 0) k) * w (ValueIdx.ix2 k (j 1)) := by
  subst hd
  rw [matmul_zero_eq_dotGeneral]
  exact dotGeneral_plain_apply M K N prec x w j

end Cert.LibPlainDot

end
-- ==== Proof.Payload.lean ====
/-
  What one grid point computes, entry by entry.

  A point loads a block of 4 × 256 tokens (2048 features each), a 2048 × 512 tile of the fused weight whose
  first 256 columns belong to expert 0 and last 256 to expert 1, the matching 512 fused bias entries, and
  the tokens' 4 × 256 type words. Flattening the tokens to 1024 rows (row b·256 + r is token (b, r)),
  multiplying by the tile and adding the bias row gives, at (b, r, c),
      fused (b, r, c) = (∑ k, x (b, r, k) · w (k, c)) + bias (0, c),
  the narrowing of x to sixteen bits being the identity on extended reals. The stored value at (b, r, n) is
      fused (b, r, n) + t (b, r) · (fused (b, r, n + 256) − fused (b, r, n)),
  with t (b, r) the type word read as a signed integer.
-/
import proofs.«422031_j27333171872220_3_alg».proof.Proof.Gen.KernelIdeal.Skeleton
import proofs.«422031_j27333171872220_3_alg».proof.Proof.LibPlainDot
import Idealize.ShloMosaic.Lib.Pipeline.Value
import Idealize.ShloMosaic.Lib.ValueIdx

noncomputable section

open scoped BigOperators

namespace Cert.KernelIdeal.Payload

open Cert.KernelIdeal Cert.KernelIdeal.Gen Idealize.ShloMosaic Idealize.ShloMosaic.ValueIdx

/-- Entry (b, r, c) of the block's fused pre-activation: token (b, r) against column c of the weight tile, plus the
    fused bias at c. -/
def fused (v0 : FVec Ideal S4x256x2048 .f32) (v3 : FVec Ideal S2048x512 .bf16) (v7 : FVec Ideal S1x512 .f32)
    (b : Fin 4) (r : Fin 256) (c : Fin 512) : EReal :=
  (∑ k : Fin 2048, v0 (ix3 b r k) * v3 (ix2 k c)) + v7 (ix2 (0 : Fin 1) c)

/-- The same as the body builds it: flatten, multiply into a zero accumulator, unflatten, add the broadcast bias row. -/
def fusedVec (v0 : FVec Ideal S4x256x2048 .f32) (v3 : FVec Ideal S2048x512 .bf16) (v7 : FVec Ideal S1x512 .f32) :
    FVec Ideal S4x256x512 .f32 :=
  addf (shapeCast S4x256x512 (matmul dot_S1024x2048_S2048x512_S1024x512_1_0_0_1_n_n none
      (shapeCast S1024x2048 (truncf .bf16 v0 bitsLt_bf16_f32) shapeCasts_S4x256x2048_S1024x2048)
      (shapeCast S2048x512 v3 shapeCasts_S2048x512_S2048x512) (constant S1024x512 .f32 0x00000000#32))
      shapeCasts_S1024x512_S4x256x512)
    (broadcastTo S4x256x512 (shapeCast S1x1x512 (shapeCast S1x512 v7 shapeCasts_S1x512_S1x512) shapeCasts_S1x512_S1x1x512)
      broadcasts_S1x1x512_S4x256x512)

/-- Row b·256 + r of the flattened token block is token (b, r). -/
theorem rows_apply (v0 : FVec Ideal S4x256x2048 .f32) (b : Fin 4) (r : Fin 256) (k : Fin 2048) :
    shapeCast S1024x2048 (truncf .bf16 v0 bitsLt_bf16_f32) shapeCasts_S4x256x2048_S1024x2048
        (ix2 (⟨b.val * 256 + r.val, by omega⟩ : Fin 1024) k) = v0 (ix3 b r k) := by
  refine (shapeCast_apply _ shapeCasts_S4x256x2048_S1024x2048 _ (ix3 b r k) ?_).trans rfl
  rw [Shape.rowMajor_val_three, Shape.rowMajor_val_two]
  rfl

/-- The product, unflattened, at (b, r, c): the sum over the 2048 features. -/
theorem prod_apply (v0 : FVec Ideal S4x256x2048 .f32) (v3 : FVec Ideal S2048x512 .bf16) (b : Fin 4) (r : Fin 256) (c : Fin 512) :
    shapeCast S4x256x512 (matmul dot_S1024x2048_S2048x512_S1024x512_1_0_0_1_n_n none
      (shapeCast S1024x2048 (truncf .bf16 v0 bitsLt_bf16_f32) shapeCasts_S4x256x2048_S1024x2048)
      (shapeCast S2048x512 v3 shapeCasts_S2048x512_S2048x512) (constant S1024x512 .f32 0x00000000#32))
      shapeCasts_S1024x512_S4x256x512 (ix3 b r c)
      = ∑ k : Fin 2048, v0 (ix3 b r k) * v3 (ix2 k c) := by
  refine (shapeCast_apply _ shapeCasts_S1024x512_S4x256x512 (ix3 b r c)
    (ix2 (⟨b.val * 256 + r.val, by omega⟩ : Fin 1024) c) ?_).trans ?_
  · rw [Shape.rowMajor_val_three, Shape.rowMajor_val_two]
    rfl
  · refine (LibPlainDot.matmul_zero_plain_apply dot_S1024x2048_S2048x512_S1024x512_1_0_0_1_n_n rfl none _ _ _).trans ?_
    refine Finset.sum_congr rfl fun k _ => ?_
    rw [shapeCast_self]
    exact congrArg (· * v3 (ix2 k c)) (rows_apply v0 b r k)

/-- The bias row, laid over every token, at (b, r, c). -/
theorem bias_apply (v7 : FVec Ideal S1x512 .f32) (b : Fin 4) (r : Fin 256) (c : Fin 512) :
    broadcastTo S4x256x512 (shapeCast S1x1x512 (shapeCast S1x512 v7 shapeCasts_S1x512_S1x512) shapeCasts_S1x512_S1x1x512)
      broadcasts_S1x1x512_S4x256x512 (ix3 b r c) = v7 (ix2 (0 : Fin 1) c) := by
  refine (broadcastTo_apply _ broadcasts_S1x1x512_S4x256x512 (ix3 b r c) (ix3 (0 : Fin 1) (0 : Fin 1) c) ?_).trans ?_
  · intro a
    match a with
    | ⟨0, _⟩ => show 0 = if (1 : Nat) = 1 then 0 else _; rw [if_pos rfl]
    | ⟨1, _⟩ => show 0 = if (1 : Nat) = 1 then 0 else _; rw [if_pos rfl]
    | ⟨2, _⟩ => show c.val = if (512 : Nat) = 1 then 0 else c.val; rw [if_neg (by decide)]
  · rw [shapeCast_self]
    refine (shapeCast_apply _ shapeCasts_S1x512_S1x1x512 _ (ix2 (0 : Fin 1) c) ?_).trans rfl
    rw [Shape.rowMajor_val_three, Shape.rowMajor_val_two]
    rfl

theorem fusedVec_apply (v0 : FVec Ideal S4x256x2048 .f32) (v3 : FVec Ideal S2048x512 .bf16) (v7 : FVec Ideal S1x512 .f32)
    (b : Fin 4) (r : Fin 256) (c : Fin 512) : fusedVec v0 v3 v7 (ix3 b r c) = fused v0 v3 v7 b r c := by
  unfold fusedVec fused
  rw [addf_apply, prod_apply, bias_apply]

/-- The token's type word, converted and laid along the 256 output columns, at (b, r, n). -/
theorem type_apply (v14 : IVec S4x256 32) (b : Fin 4) (r : Fin 256) (n : Fin 256) :
    broadcastTo S4x256x256 (sitofp (F := Ideal) .f32 (shapeCast S4x256x1 v14 shapeCasts_S4x256_S4x256x1))
      broadcasts_S4x256x1_S4x256x256 (ix3 b r n) = (((v14 (ix2 b r)).toInt : ℝ) : EReal) := by
  refine (broadcastTo_apply _ broadcasts_S4x256x1_S4x256x256 (ix3 b r n) (ix3 b r (0 : Fin 1)) ?_).trans ?_
  · intro a
    match a with
    | ⟨0, _⟩ => show b.val = if (4 : Nat) = 1 then 0 else b.val; rw [if_neg (by decide)]
    | ⟨1, _⟩ => show r.val = if (256 : Nat) = 1 then 0 else r.val; rw [if_neg (by decide)]
    | ⟨2, _⟩ => show 0 = if (1 : Nat) = 1 then 0 else _; rw [if_pos rfl]
  · rw [sitofp_apply]
    refine (congrArg (FloatOps.sitofp (F := Ideal) .f32) (shapeCast_apply _ shapeCasts_S4x256_S4x256x1 (ix3 b r (0 : Fin 1)) (ix2 b r) ?_)).trans rfl
    rw [Shape.rowMajor_val_three, Shape.rowMajor_val_two]
    show b.val * 256 + r.val = (b.val * 256 + r.val) * 1 + 0
    omega

/-- The body's stored value is the interpolation of the two halves of the fused pre-activation. -/
theorem pay_eq (v0 : Vec Ideal S4x256x2048 .f32) (v3 : Vec Ideal S2048x512 .bf16) (v7 : Vec Ideal S1x512 .f32) (v14 : Vec Ideal S4x256 .i32) :
    k0_pay1 (F := Ideal) v0 v3 v7 v14
      = addf (extractStridedSlice S4x256x256 ![0, 0, 0] (fusedVec v0 v3 v7) slices_S4x256x512_o0_0_0_S4x256x256)
          (mulf (broadcastTo S4x256x256 (sitofp (F := Ideal) .f32 (shapeCast S4x256x1 v14 shapeCasts_S4x256_S4x256x1)) broadcasts_S4x256x1_S4x256x256)
            (subf (extractStridedSlice S4x256x256 ![0, 0, 256] (fusedVec v0 v3 v7) slices_S4x256x512_o0_0_256_S4x256x256)
              (extractStridedSlice S4x256x256 ![0, 0, 0] (fusedVec v0 v3 v7) slices_S4x256x512_o0_0_0_S4x256x256))) := rfl

/-- THE PAYLOAD AT AN ENTRY. -/
theorem pay_apply (v0 : Vec Ideal S4x256x2048 .f32) (v3 : Vec Ideal S2048x512 .bf16) (v7 : Vec Ideal S1x512 .f32) (v14 : Vec Ideal S4x256 .i32)
    (b : Fin 4) (r : Fin 256) (n : Fin 256) :
    k0_pay1 (F := Ideal) v0 v3 v7 v14 (ix3 b r n)
      = fused v0 v3 v7 b r ⟨n.val, by omega⟩
        + (((v14 (ix2 b r)).toInt : ℝ) : EReal)
          * (fused v0 v3 v7 b r ⟨n.val + 256, by omega⟩ - fused v0 v3 v7 b r ⟨n.val, by omega⟩) := by
  have lo : extractStridedSlice S4x256x256 ![0, 0, 0] (fusedVec v0 v3 v7) slices_S4x256x512_o0_0_0_S4x256x256 (ix3 b r n)
      = fused v0 v3 v7 b r ⟨n.val, by omega⟩ :=
    (extractStridedSlice_apply _ _ slices_S4x256x512_o0_0_0_S4x256x256 (ix3 b r n) (ix3 b r (⟨n.val, by omega⟩ : Fin 512))
      (fun a => by
        match a with
        | ⟨0, _⟩ => show b.val = 0 + b.val; omega
        | ⟨1, _⟩ => show r.val = 0 + r.val; omega
        | ⟨2, _⟩ => show n.val = 0 + n.val; omega)).trans (fusedVec_apply v0 v3 v7 b r _)
  have hi : extractStridedSlice S4x256x256 ![0, 0, 256] (fusedVec v0 v3 v7) slices_S4x256x512_o0_0_256_S4x256x256 (ix3 b r n)
      = fused v0 v3 v7 b r ⟨n.val + 256, by omega⟩ :=
    (extractStridedSlice_apply _ _ slices_S4x256x512_o0_0_256_S4x256x256 (ix3 b r n) (ix3 b r (⟨n.val + 256, by omega⟩ : Fin 512))
      (fun a => by
        match a with
        | ⟨0, _⟩ => show b.val = 0 + b.val; omega
        | ⟨1, _⟩ => show r.val = 0 + r.val; omega
        | ⟨2, _⟩ => show n.val + 256 = 256 + n.val; omega)).trans (fusedVec_apply v0 v3 v7 b r _)
  rw [pay_eq, addf_apply, mulf_apply, subf_apply, lo, hi, type_apply]

end Cert.KernelIdeal.Payload

end
-- ==== Proof.Operands.lean ====
/-
  The fused operands the host prepares, entry by entry.

  The fused weight is a 2048 × 4096 array: each weight is transposed (row k of the result holds feature k
  against every output), its 2048 columns are cut into 8 tiles of 256, and the two experts' tiles are interleaved:
  column j·512 + n (n < 256) is column j·256 + n of expert 0's transpose, column j·512 + 256 + n is that column
  of expert 1's. So
      fuseW (k, j·512 + n)       = W0 (j·256 + n, k),
      fuseW (k, j·512 + 256 + n) = W1 (j·256 + n, k).
  The fused bias is the 1 × 4096 row interleaved the same way:
      fuseB (0, j·512 + n) = b0 (j·256 + n),   fuseB (0, j·512 + 256 + n) = b1 (j·256 + n).
  The narrowing of the fused weight to sixteen bits is the identity on extended reals.
-/
import proofs.«422031_j27333171872220_3_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Operands

open Cert.KernelIdeal Cert.KernelIdeal.Gen Idealize.ShloMosaic Idealize.ShloMosaic.TcCoe Idealize.ShloMosaic.ValueIdx
  Idealize.SL.Sem Idealize.ShloMosaic.StableHlo

/-- A weight transposed and cut into 8 column tiles, with a unit axis for the expert. -/
def tiledW (W : FVec Ideal S2048x2048 .f32) : FVec Ideal S2048x8x1x256 .f32 :=
  broadcastInDim S2048x8x1x256 ![0, 1, 3] bcast_S2048x8x256_S2048x8x1x256_0_1_3
    (shapeCast S2048x8x256 (transpose S2048x2048 [1, 0] W transposes_S2048x2048_S2048x2048_1_0) shapeCasts_S2048x2048_S2048x8x256)

/-- The fused weight: the two experts' tiles side by side, tile by tile. -/
def fuseW (W0 W1 : FVec Ideal S2048x2048 .f32) : FVec Ideal S2048x4096 .bf16 :=
  truncf .bf16 (shapeCast S2048x4096 (concatenate S2048x8x2x256 2 [⟨S2048x8x1x256, tiledW W0⟩, ⟨S2048x8x1x256, tiledW W1⟩]
    concatenates_S2048x8x1x256_S2048x8x1x256_S2048x8x2x256_d2) shapeCasts_S2048x8x2x256_S2048x4096) bitsLt_bf16_f32

/-- A bias cut into 8 tiles of 256, with a unit axis for the expert. -/
def tiledB (b : FVec Ideal S2048 .f32) : FVec Ideal S8x1x256 .f32 :=
  broadcastInDim S8x1x256 ![0, 2] bcast_S8x256_S8x1x256_0_2 (shapeCast S8x256 b shapeCasts_S2048_S8x256)

/-- The fused bias row. -/
def fuseB (b0 b1 : FVec Ideal S2048 .f32) : FVec Ideal S1x4096 .f32 :=
  shapeCast S1x4096 (concatenate S8x2x256 1 [⟨S8x1x256, tiledB b0⟩, ⟨S8x1x256, tiledB b1⟩]
    concatenates_S8x1x256_S8x1x256_S8x2x256_d1) shapeCasts_S8x2x256_S1x4096

/-- Entry (k, j, 0, n) of a tiled weight is the weight at (j·256 + n, k). -/
theorem tiledW_apply (W : FVec Ideal S2048x2048 .f32) (k : Fin 2048) (j : Fin 8) (n : Fin 256) :
    tiledW W (ix4 k j (0 : Fin 1) n) = W (ix2 (⟨j.val * 256 + n.val, by omega⟩ : Fin 2048) k) := by
  unfold tiledW
  refine (broadcastInDim_apply _ bcast_S2048x8x256_S2048x8x1x256_0_1_3 _ (ix4 k j (0 : Fin 1) n) (ix3 k j n) (fun a => ?_)).trans ?_
  · match a with
    | ⟨0, _⟩ => show k.val = if (2048 : Nat) = 1 then 0 else k.val; rw [if_neg (by decide)]
    | ⟨1, _⟩ => show j.val = if (8 : Nat) = 1 then 0 else j.val; rw [if_neg (by decide)]
    | ⟨2, _⟩ => show n.val = if (256 : Nat) = 1 then 0 else n.val; rw [if_neg (by decide)]
  · refine (shapeCast_apply _ shapeCasts_S2048x2048_S2048x8x256 (ix3 k j n)
      (ix2 k (⟨j.val * 256 + n.val, by omega⟩ : Fin 2048)) ?_).trans ?_
    · rw [Shape.rowMajor_val_three, Shape.rowMajor_val_two]
      show k.val * 2048 + (j.val * 256 + n.val) = (k.val * 8 + j.val) * 256 + n.val
      omega
    · refine transpose_apply [1, 0] W transposes_S2048x2048_S2048x2048_1_0 _ (ix2 (⟨j.val * 256 + n.val, by omega⟩ : Fin 2048) k) (fun b => ?_)
      match b with
      | ⟨0, _⟩ => rfl
      | ⟨1, _⟩ => rfl

/-- Expert 0's half of tile j of the fused weight. -/
theorem fuseW_apply0 (W0 W1 : FVec Ideal S2048x2048 .f32) (k : Fin 2048) (j : Fin 8) (n : Fin 256) :
    fuseW W0 W1 (ix2 k (⟨j.val * 512 + n.val, by omega⟩ : Fin 4096)) = W0 (ix2 (⟨j.val * 256 + n.val, by omega⟩ : Fin 2048) k) := by
  unfold fuseW
  rw [truncf_apply]
  refine (shapeCast_apply _ shapeCasts_S2048x8x2x256_S2048x4096 _ (ix4 k j (0 : Fin 2) n) ?_).trans ?_
  · rw [Shape.rowMajor_val_four, Shape.rowMajor_val_two]
    show ((k.val * 8 + j.val) * 2 + 0) * 256 + n.val = k.val * 4096 + (j.val * 512 + n.val)
    omega
  · refine (concatenate_pair_apply_left (2 : Fin 4) (tiledW W0) (tiledW W1) concatenates_S2048x8x1x256_S2048x8x1x256_S2048x8x2x256_d2
      (ix4 k j (0 : Fin 2) n) rfl (ix4 k j (0 : Fin 1) n) (fun b => ?_)).trans (tiledW_apply W0 k j n)
    match b with
    | ⟨0, _⟩ => rfl
    | ⟨1, _⟩ => rfl
    | ⟨2, _⟩ => rfl
    | ⟨3, _⟩ => rfl

/-- Expert 1's half of tile j of the fused weight. -/
theorem fuseW_apply1 (W0 W1 : FVec Ideal S2048x2048 .f32) (k : Fin 2048) (j : Fin 8) (n : Fin 256) :
    fuseW W0 W1 (ix2 k (⟨j.val * 512 + (n.val + 256), by omega⟩ : Fin 4096)) = W1 (ix2 (⟨j.val * 256 + n.val, by omega⟩ : Fin 2048) k) := by
  unfold fuseW
  rw [truncf_apply]
  refine (shapeCast_apply _ shapeCasts_S2048x8x2x256_S2048x4096 _ (ix4 k j (1 : Fin 2) n) ?_).trans ?_
  · rw [Shape.rowMajor_val_four, Shape.rowMajor_val_two]
    show ((k.val * 8 + j.val) * 2 + 1) * 256 + n.val = k.val * 4096 + (j.val * 512 + (n.val + 256))
    omega
  · refine (concatenate_pair_apply_right (2 : Fin 4) (tiledW W0) (tiledW W1) concatenates_S2048x8x1x256_S2048x8x1x256_S2048x8x2x256_d2
      (ix4 k j (1 : Fin 2) n) rfl rfl (ix4 k j (0 : Fin 1) n) (fun b hb => ?_) rfl).trans (tiledW_apply W1 k j n)
    match b with
    | ⟨0, _⟩ => rfl
    | ⟨1, _⟩ => rfl
    | ⟨2, _⟩ => exact absurd rfl hb
    | ⟨3, _⟩ => rfl

/-- Entry (j, 0, n) of a tiled bias is the bias at j·256 + n. -/
theorem tiledB_apply (b : FVec Ideal S2048 .f32) (j : Fin 8) (n : Fin 256) :
    tiledB b (ix3 j (0 : Fin 1) n) = b (ix1 (⟨j.val * 256 + n.val, by omega⟩ : Fin 2048)) := by
  unfold tiledB
  refine (broadcastInDim_apply _ bcast_S8x256_S8x1x256_0_2 _ (ix3 j (0 : Fin 1) n) (ix2 j n) (fun a => ?_)).trans ?_
  · match a with
    | ⟨0, _⟩ => show j.val = if (8 : Nat) = 1 then 0 else j.val; rw [if_neg (by decide)]
    | ⟨1, _⟩ => show n.val = if (256 : Nat) = 1 then 0 else n.val; rw [if_neg (by decide)]
  · refine shapeCast_apply _ shapeCasts_S2048_S8x256 (ix2 j n) (ix1 (⟨j.val * 256 + n.val, by omega⟩ : Fin 2048)) ?_
    rw [Shape.rowMajor_val_one, Shape.rowMajor_val_two]
    rfl

/-- Expert 0's half of tile j of the fused bias. -/
theorem fuseB_apply0 (b0 b1 : FVec Ideal S2048 .f32) (j : Fin 8) (n : Fin 256) :
    fuseB b0 b1 (ix2 (0 : Fin 1) (⟨j.val * 512 + n.val, by omega⟩ : Fin 4096)) = b0 (ix1 (⟨j.val * 256 + n.val, by omega⟩ : Fin 2048)) := by
  unfold fuseB
  refine (shapeCast_apply _ shapeCasts_S8x2x256_S1x4096 _ (ix3 j (0 : Fin 2) n) ?_).trans ?_
  · rw [Shape.rowMajor_val_three, Shape.rowMajor_val_two]
    show (j.val * 2 + 0) * 256 + n.val = 0 * 4096 + (j.val * 512 + n.val)
    omega
  · refine (concatenate_pair_apply_left (1 : Fin 3) (tiledB b0) (tiledB b1) concatenates_S8x1x256_S8x1x256_S8x2x256_d1
      (ix3 j (0 : Fin 2) n) rfl (ix3 j (0 : Fin 1) n) (fun b => ?_)).trans (tiledB_apply b0 j n)
    match b with
    | ⟨0, _⟩ => rfl
    | ⟨1, _⟩ => rfl
    | ⟨2, _⟩ => rfl

/-- Expert 1's half of tile j of the fused bias. -/
theorem fuseB_apply1 (b0 b1 : FVec Ideal S2048 .f32) (j : Fin 8) (n : Fin 256) :
    fuseB b0 b1 (ix2 (0 : Fin 1) (⟨j.val * 512 + (n.val + 256), by omega⟩ : Fin 4096)) = b1 (ix1 (⟨j.val * 256 + n.val, by omega⟩ : Fin 2048)) := by
  unfold fuseB
  refine (shapeCast_apply _ shapeCasts_S8x2x256_S1x4096 _ (ix3 j (1 : Fin 2) n) ?_).trans ?_
  · rw [Shape.rowMajor_val_three, Shape.rowMajor_val_two]
    show (j.val * 2 + 1) * 256 + n.val = 0 * 4096 + (j.val * 512 + (n.val + 256))
    omega
  · refine (concatenate_pair_apply_right (1 : Fin 3) (tiledB b0) (tiledB b1) concatenates_S8x1x256_S8x1x256_S8x2x256_d1
      (ix3 j (1 : Fin 2) n) rfl rfl (ix3 j (0 : Fin 1) n) (fun b hb => ?_) rfl).trans (tiledB_apply b1 j n)
    match b with
    | ⟨0, _⟩ => rfl
    | ⟨1, _⟩ => exact absurd rfl hb
    | ⟨2, _⟩ => rfl

variable (m : (ℓ : Loc nD τ sig) → Buf (Elt Ideal) ℓ)

/-- The array the weight window stages, as the region finds it, is the fused weight of the two argument weights. -/
theorem V_weight (c : Dev nD) :
    (V m c main_v8 : S2048x4096.Idx → EReal) = fuseW (m ((c : Thread nD τ).loc main_arg2)) (m ((c : Thread nD τ).loc main_arg4)) := by
  dsimp only [Gen.V, Gen.hostOps0]
  after_results
  rfl

/-- The array the bias window stages, as the region finds it, is the fused bias of the two argument biases. -/
theorem V_bias (c : Dev nD) :
    (V m c main_v14 : S1x4096.Idx → EReal) = fuseB (m ((c : Thread nD τ).loc main_arg3)) (m ((c : Thread nD τ).loc main_arg5)) := by
  dsimp only [Gen.V, Gen.hostOps0]
  after_results
  rfl

end Cert.KernelIdeal.Operands

end
-- ==== Proof.KernelLerp.lean ====
/-
  The kernel's result array is the interpolated mixture of the two experts.

  The grid has 16 × 8 points. Point (I, J) reads tokens I·256 … I·256 + 255 of every batch row (all 2048 features
  and their type words), columns J·512 … J·512 + 511 of the fused weight and of the fused bias, and writes the
  4 × 256 × 256 block of the result at tokens I·256 …, output features J·256 …. By the fused operands' layout the
  first 256 of those fused columns are expert 0's output features J·256 + n and the last 256 expert 1's, so the
  stored value at (b, r, n) is the interpolation of the two experts at (b, I·256 + r, J·256 + n). The 128 blocks
  tile the result array, which therefore is the interpolation everywhere.
-/
import proofs.«422031_j27333171872220_3_alg».proof.Proof.Gen.KernelIdeal.Value
import proofs.«422031_j27333171872220_3_alg».proof.Proof.Mixture
import proofs.«422031_j27333171872220_3_alg».proof.Proof.Payload
import proofs.«422031_j27333171872220_3_alg».proof.Proof.Operands

noncomputable section

open scoped BigOperators

namespace Cert.KernelIdeal.Lerp

open Cert.KernelIdeal Cert.KernelIdeal.Gen Cert.KernelIdeal.Value Idealize.ShloMosaic Idealize.ShloMosaic.TcCoe
  Idealize.ShloMosaic.ValueIdx Idealize.SL.Sem Cert.Mixture Cert.KernelIdeal.Payload Cert.KernelIdeal.Operands
open Idealize.ShloMosaic.Pipeline (Dat)

/-! ## One point, over plain blocks -/

/-- A point whose four input blocks are the stated parts of the arrays stores the interpolation of the two
    experts at the matching entries of the result. -/
theorem point_eq (x0 : Vec Ideal S4x256x2048 .f32) (x1 : Vec Ideal S4x256 .i32) (x2 : Vec Ideal S2048x512 .bf16) (x3 : Vec Ideal S1x512 .f32)
    (X : SX.Idx → EReal) (T : ST.Idx → BitVec 32) (W0 W1 : SW.Idx → EReal) (b0 b1 : SB.Idx → EReal)
    (I J : Nat) (hI : I < 16) (hJ : J < 8)
    (h0 : ∀ (b : Fin 4) (r : Fin 256) (k : Fin 2048), x0 (ix3 b r k) = X (ix3 b (⟨I * 256 + r.val, by omega⟩ : Fin 4096) k))
    (h1 : ∀ (b : Fin 4) (r : Fin 256), x1 (ix2 b r) = T (ix2 b (⟨I * 256 + r.val, by omega⟩ : Fin 4096)))
    (h2 : ∀ (k : Fin 2048) (q : Fin 512), x2 (ix2 k q) = fuseW W0 W1 (ix2 k (⟨J * 512 + q.val, by omega⟩ : Fin 4096)))
    (h3 : ∀ (q : Fin 512), x3 (ix2 (0 : Fin 1) q) = fuseB b0 b1 (ix2 (0 : Fin 1) (⟨J * 512 + q.val, by omega⟩ : Fin 4096)))
    (b : Fin 4) (r : Fin 256) (n : Fin 256) :
    k0_pay1 (F := Ideal) x0 x2 x3 x1 (ix3 b r n)
      = lerp X T W0 b0 W1 b1 (ix3 b (⟨I * 256 + r.val, by omega⟩ : Fin 4096) (⟨J * 256 + n.val, by omega⟩ : Fin 2048)) := by
  have e0 : fused x0 x2 x3 b r ⟨n.val, by omega⟩
      = expert X W0 b0 (ix3 b (⟨I * 256 + r.val, by omega⟩ : Fin 4096) (⟨J * 256 + n.val, by omega⟩ : Fin 2048)) := by
    unfold fused expert
    refine congrArg₂ (· + ·) (Finset.sum_congr rfl fun k _ => ?_) ((h3 _).trans (fuseB_apply0 b0 b1 ⟨J, hJ⟩ n))
    exact congrArg₂ (· * ·) (h0 b r k) ((h2 k _).trans (fuseW_apply0 W0 W1 k ⟨J, hJ⟩ n))
  have e1 : fused x0 x2 x3 b r ⟨n.val + 256, by omega⟩
      = expert X W1 b1 (ix3 b (⟨I * 256 + r.val, by omega⟩ : Fin 4096) (⟨J * 256 + n.val, by omega⟩ : Fin 2048)) := by
    unfold fused expert
    refine congrArg₂ (· + ·) (Finset.sum_congr rfl fun k _ => ?_) ((h3 _).trans (fuseB_apply1 b0 b1 ⟨J, hJ⟩ n))
    exact congrArg₂ (· * ·) (h0 b r k) ((h2 k _).trans (fuseW_apply1 W0 W1 k ⟨J, hJ⟩ n))
  rw [pay_apply, e0, e1, h1 b r]
  rfl

/-! ## The blocks of the launched kernel -/

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the token windows follow the result's token block, the fused-operand
    windows its feature block, every other block coordinate is 0, and the result's coordinates stay in range. -/
theorem idx_facts : ∀ t : Fin cfg0.N, win0_0.index t (0 : Fin 3) = 0
    ∧ win0_0.index t (1 : Fin 3) = win0_4.index t (1 : Fin 3)
    ∧ win0_0.index t (2 : Fin 3) = 0
    ∧ win0_1.index t (0 : Fin 2) = 0
    ∧ win0_1.index t (1 : Fin 2) = win0_4.index t (1 : Fin 3)
    ∧ win0_2.index t (0 : Fin 2) = 0
    ∧ win0_2.index t (1 : Fin 2) = win0_4.index t (2 : Fin 3)
    ∧ win0_3.index t (0 : Fin 2) = 0
    ∧ win0_3.index t (1 : Fin 2) = win0_4.index t (2 : Fin 3)
    ∧ win0_4.index t (0 : Fin 3) = 0
    ∧ win0_4.index t (1 : Fin 3) < 16
    ∧ win0_4.index t (2 : Fin 3) < 8 :=
  (by decide +kernel : ∀ t : Fin grid0.N, _)

/-- Every block of the result is some point's. -/
theorem idx_onto : ∀ (q1 : Fin 16) (q2 : Fin 8), ∃ t : Fin cfg0.N, win0_4.index t = ![0, q1.val, q2.val] :=
  (by decide +kernel : ∀ (q1 : Fin 16) (q2 : Fin 8), ∃ t : Fin grid0.N, win0_4.index t = ![0, q1.val, q2.val])

/-- The token block at a point: 256 consecutive tokens of every batch row. -/
theorem tokens_apply (c : Dev nD) (t : Fin cfg0.N) (b : Fin 4) (r : Fin 256) (k : Fin 2048)
    (hr : win0_4.index t (1 : Fin 3) * 256 + r.val < 4096) :
    (iblk m c 0 t : Vec Ideal S4x256x2048 .f32) (ix3 b r k)
      = (m ((c : Thread nD τ).loc main_arg0) : S4x4096x2048.Idx → EReal) (ix3 b (⟨win0_4.index t (1 : Fin 3) * 256 + r.val, hr⟩ : Fin 4096) k) := by
  obtain ⟨e0, e1, e2, -⟩ := idx_facts t
  unfold iblk
  rw [View.read_apply]
  show V m c main_arg0 _ = _
  rw [V_main_arg0]
  congr 1
  funext a
  apply Fin.ext
  match a with
  | ⟨0, _⟩ => show win0_0.index t (0 : Fin 3) * 4 + 1 * b.val = b.val; rw [e0]; omega
  | ⟨1, _⟩ => show win0_0.index t (1 : Fin 3) * 256 + 1 * r.val = win0_4.index t (1 : Fin 3) * 256 + r.val; rw [e1]; omega
  | ⟨2, _⟩ => show win0_0.index t (2 : Fin 3) * 2048 + 1 * k.val = k.val; rw [e2]; omega

/-- The type block at a point. -/
theorem types_apply (c : Dev nD) (t : Fin cfg0.N) (b : Fin 4) (r : Fin 256)
    (hr : win0_4.index t (1 : Fin 3) * 256 + r.val < 4096) :
    (iblk m c 1 t : Vec Ideal S4x256 .i32) (ix2 b r)
      = (m ((c : Thread nD τ).loc main_arg1) : S4x4096.Idx → BitVec 32) (ix2 b (⟨win0_4.index t (1 : Fin 3) * 256 + r.val, hr⟩ : Fin 4096)) := by
  obtain ⟨-, -, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 4 + 1 * b.val = b.val; rw [e0]; omega
  | ⟨1, _⟩ => show win0_1.index t (1 : Fin 2) * 256 + 1 * r.val = win0_4.index t (1 : Fin 3) * 256 + r.val; rw [e1]; omega

/-- The fused weight tile at a point. -/
theorem weight_apply (c : Dev nD) (t : Fin cfg0.N) (k : Fin 2048) (q : Fin 512)
    (hq : win0_4.index t (2 : Fin 3) * 512 + q.val < 4096) :
    (iblk m c 2 t : Vec Ideal S2048x512 .bf16) (ix2 k q)
      = fuseW (m ((c : Thread nD τ).loc main_arg2)) (m ((c : Thread nD τ).loc main_arg4))
          (ix2 k (⟨win0_4.index t (2 : Fin 3) * 512 + q.val, hq⟩ : Fin 4096)) := by
  obtain ⟨-, -, -, -, -, e0, e1, -⟩ := idx_facts t
  unfold iblk
  rw [View.read_apply]
  show V m c main_v8 _ = _
  rw [V_weight]
  congr 1
  funext a
  apply Fin.ext
  match a with
  | ⟨0, _⟩ => show win0_2.index t (0 : Fin 2) * 2048 + 1 * k.val = k.val; rw [e0]; omega
  | ⟨1, _⟩ => show win0_2.index t (1 : Fin 2) * 512 + 1 * q.val = win0_4.index t (2 : Fin 3) * 512 + q.val; rw [e1]; omega

/-- The fused bias tile at a point. -/
theorem biasrow_apply (c : Dev nD) (t : Fin cfg0.N) (q : Fin 512)
    (hq : win0_4.index t (2 : Fin 3) * 512 + q.val < 4096) :
    (iblk m c 3 t : Vec Ideal S1x512 .f32) (ix2 (0 : Fin 1) q)
      = fuseB (m ((c : Thread nD τ).loc main_arg3)) (m ((c : Thread nD τ).loc main_arg5))
          (ix2 (0 : Fin 1) (⟨win0_4.index t (2 : Fin 3) * 512 + q.val, hq⟩ : Fin 4096)) := by
  obtain ⟨-, -, -, -, -, -, -, e0, e1, -⟩ := idx_facts t
  unfold iblk
  rw [View.read_apply]
  show V m c main_v14 _ = _
  rw [V_bias]
  congr 1
  funext a
  apply Fin.ext
  match a with
  | ⟨0, _⟩ => show win0_3.index t (0 : Fin 2) * 1 + 1 * 0 = 0; rw [e0]
  | ⟨1, _⟩ => show win0_3.index t (1 : Fin 2) * 512 + 1 * q.val = win0_4.index t (2 : Fin 3) * 512 + q.val; rw [e1]; omega

/-! ## The result array -/

/-- The interpolated mixture of the two experts, of the arrays as launched. -/
abbrev result (c : Dev nD) : Buf (Elt Ideal) ((c : Thread nD τ).loc main_v15) :=
  lerp (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- WHAT POINT t WRITES BACK is block t of the interpolated mixture. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz3]
  simp only [View.ld_unit_zero (S := S4x256x2048) hz3, View.ld_unit_zero (S := S4x256) hz2,
    View.ld_unit_zero (S := S2048x512) hz2, View.ld_unit_zero (S := S1x512) hz2]
  obtain ⟨-, -, -, -, -, -, -, -, -, e40, hI, hJ⟩ := idx_facts t
  funext y
  have hy0 : (y 0).val < 4 := (y 0).isLt
  have hy1 : (y 1).val < 256 := (y 1).isLt
  have hy2 : (y 2).val < 256 := (y 2).isLt
  have ey : (cfg0.win 4).xinj (grid0.coords t) y
      = ix3 (⟨(y 0).val, hy0⟩ : Fin 4) (⟨(y 1).val, hy1⟩ : Fin 256) (⟨(y 2).val, hy2⟩ : Fin 256) :=
    funext fun a => by
      match a with
      | ⟨0, _⟩ => rfl
      | ⟨1, _⟩ => rfl
      | ⟨2, _⟩ => rfl
  have ez : ((cfg0.win 4).blk t).view.emb y
      = ix3 (⟨(y 0).val, hy0⟩ : Fin 4) (⟨win0_4.index t (1 : Fin 3) * 256 + (y 1).val, by omega⟩ : Fin 4096)
          (⟨win0_4.index t (2 : Fin 3) * 256 + (y 2).val, by omega⟩ : Fin 2048) :=
    funext fun a => Fin.ext (by
      match a with
      | ⟨0, _⟩ => show win0_4.index t (0 : Fin 3) * 4 + 1 * (y 0).val = (y 0).val; rw [e40]; omega
      | ⟨1, _⟩ => show win0_4.index t (1 : Fin 3) * 256 + 1 * (y 1).val = win0_4.index t (1 : Fin 3) * 256 + (y 1).val; omega
      | ⟨2, _⟩ => show win0_4.index t (2 : Fin 3) * 256 + 1 * (y 2).val = win0_4.index t (2 : Fin 3) * 256 + (y 2).val; omega)
  show k0_pay1 (F := Ideal) (iblk m c 0 t) (iblk m c 2 t) (iblk m c 3 t) (iblk m c 1 t) ((cfg0.win 4).xinj (grid0.coords t) y)
    = result m c (((cfg0.win 4).blk t).view.emb y)
  refine (congrArg (k0_pay1 (F := Ideal) (iblk m c 0 t) (iblk m c 2 t) (iblk m c 3 t) (iblk m c 1 t)) ey).trans ?_
  refine Eq.trans ?_ (congrArg (result m c) ez).symm
  exact point_eq (iblk m c 0 t) (iblk m c 1 t) (iblk m c 2 t) (iblk m c 3 t)
    (m ((c : Thread nD τ).loc main_arg0)) (m ((c : Thread nD τ).loc main_arg1)) (m ((c : Thread nD τ).loc main_arg2))
    (m ((c : Thread nD τ).loc main_arg4)) (m ((c : Thread nD τ).loc main_arg3)) (m ((c : Thread nD τ).loc main_arg5))
    (win0_4.index t (1 : Fin 3)) (win0_4.index t (2 : Fin 3)) hI hJ
    (fun b r k => tokens_apply m c t b r k _) (fun b r => types_apply m c t b r _)
    (fun k q => weight_apply m c t k q _) (fun q => biasrow_apply m c t q _) _ _ _

/-- An index of the result array is in point t's block iff each coordinate is in the block's range on its axis. -/
theorem mem_blk (t : Fin cfg0.N) (i : S4x4096x2048.Idx) :
    i ∈ ((cfg0.win 4).blk t).view.set ↔ ∀ a : Fin 3, win0_4.index t a * S4x256x256.size a ≤ (i a).val
      ∧ (i a).val < win0_4.index t a * S4x256x256.size a + S4x256x256.size a := by
  show i ∈ ((View.whole main_v15).slice (win0_4.rect t)).set ↔ _
  rw [View.set_slice_whole, Rect.mem_set_unit]
  exact Iff.rfl

/-- The 128 blocks cover the result array: entry (b, s, e) lies in the block of point (s / 256, e / 256). -/
theorem cover (i : S4x4096x2048.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 2048 := (i 2).isLt
  obtain ⟨t, ht⟩ := idx_onto ⟨(i 1).val / 256, by omega⟩ ⟨(i 2).val / 256, by omega⟩
  have q0 : win0_4.index t (0 : Fin 3) = 0 := congrFun ht 0
  have q1 : win0_4.index t (1 : Fin 3) = (i 1).val / 256 := congrFun ht 1
  have q2 : win0_4.index t (2 : Fin 3) = (i 2).val / 256 := congrFun ht 2
  refine ⟨t, flush0_4 t, ?_⟩
  rw [mem_blk]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 256 ≤ (i 1).val ∧ (i 1).val < win0_4.index t (1 : Fin 3) * 256 + 256; omega
  | ⟨2, _⟩ => show win0_4.index t (2 : Fin 3) * 256 ≤ (i 2).val ∧ (i 2).val < win0_4.index t (2 : Fin 3) * 256 + 256; omega

/-- THE ARRAY after the run is the interpolated mixture. -/
theorem final (c : Dev nD) : (dats m 0 c).arrAt 4 cfg0.N = result m c :=
  (dats m 0 c).arrAt_eq_of_cover 4 (result m c) (fun t _ => flushed_eq m c t) cover

/-- The run, read: the result array at the interpolated mixture of the arguments, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.KernelIdeal.Lerp

end
-- ==== Proof.lean ====
/-
  Two dense experts mixed per token: the kernel against its reference, over the extended reals.

  Both programs compute, for every token (b, s) and output feature e, the two dense layers
      expert_j (b, s, e) = (∑ k, x (b, s, k) · W_j (e, k)) + bias_j (e),   j = 0, 1.
  The reference keeps expert 0 where the token's type is 0 and expert 1 where it is 1, a zero elsewhere, and adds
  the two. The kernel multiplies each block of tokens by one tile of a fused weight that holds both experts'
  columns side by side, adds the fused bias, and interpolates: expert_0 + t · (expert_1 − expert_0), with t the
  type read as a number. Under the precondition — every float entry finite, every type 0 or 1 — the two agree:
  at t = 0 the product vanishes, at t = 1 the real identity a + (b − a) = b applies because the experts' outputs
  are real numbers. The kernel's sixteen-bit narrowing of x and of the fused weight is the identity on extended
  reals, and its tiled sums are the reference's sums, term by term.
-/
import proofs.«422031_j27333171872220_3_alg».proof.Defs
import proofs.«422031_j27333171872220_3_alg».proof.Proof.Gen.Kernel
import proofs.«422031_j27333171872220_3_alg».proof.Proof.Gen.Kernel.Skeleton
import proofs.«422031_j27333171872220_3_alg».proof.Proof.Gen.Kernel.Launch
import proofs.«422031_j27333171872220_3_alg».proof.Proof.Gen.Kernel.Points
import proofs.«422031_j27333171872220_3_alg».proof.Proof.Gen.Kernel.Frame
import proofs.«422031_j27333171872220_3_alg».proof.Proof.Gen.KernelIdeal
import proofs.«422031_j27333171872220_3_alg».proof.Proof.Gen.KernelIdeal.Skeleton
import proofs.«422031_j27333171872220_3_alg».proof.Proof.Gen.KernelIdeal.Launch
import proofs.«422031_j27333171872220_3_alg».proof.Proof.Gen.KernelIdeal.Points
import proofs.«422031_j27333171872220_3_alg».proof.Proof.Gen.KernelIdeal.Frame
import proofs.«422031_j27333171872220_3_alg».proof.Proof.Gen.ReferenceIdeal
import proofs.«422031_j27333171872220_3_alg».proof.Proof.Gen.Pre_finite_inputs
import proofs.«422031_j27333171872220_3_alg».proof.Proof.Gen.KernelIdeal.Value
import proofs.«422031_j27333171872220_3_alg».proof.Proof.Gen.ReferenceIdeal.Run
import proofs.«422031_j27333171872220_3_alg».proof.Proof.Gen.ReferenceIdeal.Read
import proofs.«422031_j27333171872220_3_alg».proof.Proof.Mixture
import proofs.«422031_j27333171872220_3_alg».proof.Proof.RefMasked
import proofs.«422031_j27333171872220_3_alg».proof.Proof.PreRead
import proofs.«422031_j27333171872220_3_alg».proof.Proof.KernelLerp
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs to its composed term; dropping the result leaves the frame. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result array is the interpolated mixture, the reference's the masked mixture, of arguments that
    agree; for real entries and types in {0, 1} the two mixtures are equal entry by entry. -/
theorem algebraic : Cert.algebraic_KernelIdeal_ReferenceIdeal := by
  intro m ρ m' ρ' hpre hagree
  refine ⟨fun c => Cert.KernelIdeal.Lerp.result m c, Cert.KernelIdeal.Lerp.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.Masked.ref_eq_masked]
  obtain ⟨a0, a1, a2, a3, a4, a5⟩ := hagree c
  rw [a0, a1, a2, a3, a4, a5]
  obtain ⟨hx, hW0, hb0, hW1, hb1, ht⟩ := Cert.Pre_finite_inputs.Decode.read _ _ _ _ _ _ (hpre c)
  funext i
  exact (Cert.Mixture.lerp_eq_masked _ _ _ _ _ _ hx hW0 hb0 hW1 hb1 ht i).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
